-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S512x128 : Shape := ⟨2, ![512, 128]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x128 .f32) (main_arg1 : IVec S800000 32) (main_arg2 : IVec S800000 32) (main_arg3 : FVec F S512x128 .f32) (main_arg4 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S512x128 : Shape := ⟨2, ![512, 128]⟩
abbrev S512 : Shape := ⟨1, ![512]⟩
abbrev S_ : Shape := ⟨0, ![]⟩
abbrev S800000x1 : Shape := ⟨2, ![800000, 1]⟩
abbrev S800000x128 : Shape := ⟨2, ![800000, 128]⟩
abbrev S128x512 : Shape := ⟨2, ![128, 512]⟩
abbrev S1x512 : Shape := ⟨2, ![1, 512]⟩
abbrev S50000x512 : Shape := ⟨2, ![50000, 512]⟩
abbrev S5000x128 : Shape := ⟨2, ![5000, 128]⟩
abbrev S5000x512 : Shape := ⟨2, ![5000, 512]⟩

abbrev nBuf : Space → Nat
  | .hbm => 23
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S512x128, .f32⟩
  | .hbm, ⟨4, _⟩ => ⟨S512, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x512, .f32⟩
  | .hbm, ⟨19, _⟩ => ⟨S1x512, .f32⟩
  | .hbm, ⟨20, _⟩ => ⟨S50000x128, .bf16⟩
  | .hbm, ⟨21, _⟩ => ⟨S128x512, .bf16⟩
  | .hbm, ⟨22, _⟩ => ⟨S50000x512, .f32⟩
  | .local _ .vmem, ⟨0, _⟩ => ⟨S5000x128, .bf16⟩
  | .local _ .vmem, ⟨1, _⟩ => ⟨S5000x128, .bf16⟩
  | .local _ .vmem, ⟨2, _⟩ => ⟨S128x512, .bf16⟩
  | .local _ .vmem, ⟨3, _⟩ => ⟨S1x512, .f32⟩
  | .local _ .vmem, ⟨4, _⟩ => ⟨S5000x512, .f32⟩
  | .local _ .vmem, ⟨5, _⟩ => ⟨S5000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S512x128_S128x512_1_0 : S512x128.Transposes [1, 0] S128x512
  shapeCasts_S512_S1x512 : S512.ShapeCasts S1x512
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x512_S5000x512_1_0_0_1_n_n_wf : DotDims.WF S5000x128 S128x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S50000x512.size a
  hwx0_3 : ∀ i : grid0.Coords, EltTy.bits .f32 = 32 ∨ (Rect.block (s := S50000x512) S5000x512.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S512x128 : Shape := ⟨2, ![512, 128]⟩
abbrev S512 : Shape := ⟨1, ![512]⟩
abbrev S_ : Shape := ⟨0, ![]⟩
abbrev S800000x1 : Shape := ⟨2, ![800000, 1]⟩
abbrev S800000x128 : Shape := ⟨2, ![800000, 128]⟩
abbrev S50000x512 : Shape := ⟨2, ![50000, 512]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S512x128, .f32⟩
  | .hbm, ⟨4, _⟩ => ⟨S512, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S50000x512, .f32⟩
  | .hbm, ⟨19, _⟩ => ⟨S1x512, .f32⟩
  | .hbm, ⟨20, _⟩ => ⟨S50000x512, .f32⟩
  | .hbm, ⟨21, _⟩ => ⟨S50000x512, .f32⟩
  | .hbm, ⟨22, _⟩ => ⟨S_, .f32⟩
  | .hbm, ⟨23, _⟩ => ⟨S50000x512, .f32⟩
  | .hbm, ⟨24, _⟩ => ⟨S50000x512, .i1⟩
  | .hbm, ⟨25, _⟩ => ⟨S_, .f32⟩
  | .hbm, ⟨26, _⟩ => ⟨S50000x512, .f32⟩
  | .hbm, ⟨27, _⟩ => ⟨S50000x512, .f32⟩
  | .hbm, ⟨28, _⟩ => ⟨S50000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S512x128_S50000x512_1_1_0_0_n_n_wf : DotDims.WF S50000x128 S512x128 S50000x512 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S512x128_S50000x512_1_1_0_0_n_n : DotDims S50000x128 S512x128 S50000x512 where
  lhsContracting := [1]
  rhsContracting := [1]
  lhsNonContracting := [0]
  rhsNonContracting := [0]
  lhsBatch := []
  rhsBatch := []
  wf := dot_S50000x128_S512x128_S50000x512_1_1_0_0_n_n_wf

class Facts : Prop extends Facts₀ where

variable [Facts]
-- ==== Proof.Layer.lean ====
/-
  The layer this certificate is about, as one function of three arrays, index by index, on the extended reals.

  Given the aggregated node features h [50000, 128], the weight W [512, 128] and the bias b [512], entry (n, o) of
  the result is  act ( Σ_k h[n, k] · W[o, k] + b[o] ),  where  act a = a  when  a ≥ 0  and  0.01f · a  otherwise
  (the slope is the float word 0x3C23D70A, read as its exact binary value; the comparison is the ordered
  "greater or equal" of the extended reals against the zero word).
-/
import Idealize.ShloMosaic.PureOps.Ideal
import Idealize.ShloMosaic.Lib.ValueIdx

noncomputable section

open scoped BigOperators

namespace Cert.Layer

open Idealize.ShloMosaic Idealize.ShloMosaic.ValueIdx

/-- The leaky rectifier on one extended real: the value itself where it is at least zero, the slope times it elsewhere. -/
def act (a : EReal) : EReal :=
  Scalar.select (FloatOps.cmpf (F := Ideal) (φ := .f32) .oge a (FloatOps.ofBits (F := Ideal) .f32 0x00000000#32)) a
    ((FloatOps.ofBits (F := Ideal) .f32 0x3C23D70A#32 : EReal) * a)

/-- The value before the rectifier at entry (n, o): row n of h against row o of W, plus the bias at o. -/
def pre (h : (⟨2, ![50000, 128]⟩ : Shape).Idx → EReal) (W : (⟨2, ![512, 128]⟩ : Shape).Idx → EReal)
    (b : (⟨1, ![512]⟩ : Shape).Idx → EReal) (n : Fin 50000) (o : Fin 512) : EReal :=
  (∑ k : Fin 128, h (ix2 n k) * W (ix2 o k)) + b (ix1 o)

/-- The layer's result array. -/
def out (h : (⟨2, ![50000, 128]⟩ : Shape).Idx → EReal) (W : (⟨2, ![512, 128]⟩ : Shape).Idx → EReal)
    (b : (⟨1, ![512]⟩ : Shape).Idx → EReal) : (⟨2, ![50000, 512]⟩ : Shape).Idx → EReal :=
  fun i => act (pre h W b (i 0) (i 1))

end Cert.Layer

end
-- ==== Proof.RefLayer.lean ====
/-
  The reference's result, read one operation at a time, is the layer of its own aggregated features: the host's
  contraction of h's and W's last axes is the row-by-row sum, the bias broadcast along the rows reads b at the
  column, and the comparison, the product with the slope and the selection are the rectifier entry by entry.
-/
import proofs.«154107_j5549097746957_1_alg».proof.Proof.Gen.ReferenceIdeal.Read
import proofs.«154107_j5549097746957_1_alg».proof.Proof.Layer

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage is `Layer.out` of the scatter-added features, the weight and the bias. -/
theorem result_is_layer (x0 : (⟨S50000x128, .f32⟩ : BufTy).Contents (Elt Ideal)) (x1 x2 : (⟨S800000, .i32⟩ : BufTy).Contents (Elt Ideal))
    (x3 : (⟨S512x128, .f32⟩ : BufTy).Contents (Elt Ideal)) (x4 : (⟨S512, .f32⟩ : BufTy).Contents (Elt Ideal)) :
    val_main_v18 (F := Ideal) x0 x1 x2 x3 x4 = Cert.Layer.out (val_main_v9 (F := Ideal) x0 x1 x2) x3 x4 := by
  funext i
  have el : ∀ k : Fin 128, lidx_main_v10 i k = ix2 (i 0) k := fun k =>
    funext fun a => Fin.ext (by match a with | ⟨0, _⟩ => rfl | ⟨1, _⟩ => rfl)
  have er : ∀ k : Fin 128, ridx_main_v10 i k = ix2 (i 1) k := fun k =>
    funext fun a => Fin.ext (by match a with | ⟨0, _⟩ => rfl | ⟨1, _⟩ => rfl)
  have eb : idx_main_v11 (idx_main_v12 i) = ix1 (i 1) :=
    funext fun a => Fin.ext (by match a with | ⟨0, _⟩ => rfl)
  rw [val_main_v18_apply, val_main_v15_apply, val_main_v17_apply, val_main_v13_apply, val_main_v10_apply,
    val_main_v12_apply, val_main_v11_apply, val_main_v14_apply, val_main_v16_apply, val_main_cst_1_apply,
    val_main_cst_2_apply]
  simp only [el, er, eb]
  rfl

end Cert.ReferenceIdeal.RefValue

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.BodyValue.lean ====
/-
  What the kernel body stores, entry by entry, at the ideal instance.

  The body multiplies its [5000, 128] block of node features with the whole [128, 512] transposed weight into a zero
  accumulator, adds the [1, 512] bias row broadcast along the rows, and applies the leaky rectifier. At entry (p, q)
  the product is  Σ_k x0[p, k] · x1[k, q]  (the contraction's sum on the extended reals), the broadcast reads the
  bias row at column q, and the comparison / product / selection are the rectifier of `Layer.act`.
-/
import proofs.«154107_j5549097746957_1_alg».proof.Proof.Gen.KernelIdeal.Skeleton
import proofs.«154107_j5549097746957_1_alg».proof.Proof.Layer
import proofs.«154107_j5549097746957_1_alg».proof.Proof.LibPlainDot
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- The block product into the zero accumulator at entry (p, q). -/
theorem product_apply (x0 : FVec Ideal S5000x128 .bf16) (x1 : FVec Ideal S128x512 .bf16) (p : Fin 5000) (q : Fin 512) :
    matmul dot_S5000x128_S128x512_S5000x512_1_0_0_1_n_n none x0 x1 (constant S5000x512 .f32 0x00000000#32) (ix2 p q)
      = ∑ k : Fin 128, x0 (ix2 p k) * x1 (ix2 k q) :=
  Cert.PlainDot.matmul_zero_apply dot_S5000x128_S128x512_S5000x512_1_0_0_1_n_n rfl none x0 x1 (ix2 p q)

/-- The bias row broadcast along the rows reads the row at the column. -/
theorem bias_apply (x2 : FVec Ideal S1x512 .f32) (p : Fin 5000) (q : Fin 512) :
    broadcastTo S5000x512 x2 broadcasts_S1x512_S5000x512 (ix2 p q) = x2 (ix2 0 q) :=
  broadcastTo_apply x2 broadcasts_S1x512_S5000x512 (ix2 p q) (ix2 0 q) (fun a => match a with
    | ⟨0, _⟩ => by show (0 : Nat) = if (1 : Nat) = 1 then 0 else _; rw [if_pos rfl]
    | ⟨1, _⟩ => by show q.val = if (512 : Nat) = 1 then 0 else q.val; rw [if_neg (by decide)])

/-- The body's stored value at entry (p, q) of the output block. -/
theorem stored_apply (x0 : Vec Ideal S5000x128 .bf16) (x1 : Vec Ideal S128x512 .bf16) (x2 : Vec Ideal S1x512 .f32)
    (p : Fin 5000) (q : Fin 512) :
    k0_pay1 (F := Ideal) x0 x1 x2 (ix2 p q)
      = Cert.Layer.act ((∑ k : Fin 128, x0 (ix2 p k) * x1 (ix2 k q)) + x2 (ix2 0 q)) := by
  unfold k0_pay1
  simp only [shapeCast_self, select_apply, cmpf_apply, addf_apply, mulf_apply, broadcast_apply, product_apply, bias_apply]
  rfl

end Cert.KernelIdeal.Body

end
-- ==== Proof.KernelValue.lean ====
/-
  The kernel's result array as one function of the arguments, at the ideal instance.

  Before the region @main gathers the source rows, scatter-adds them onto the destination nodes (`agg`), transposes
  the weight and lays the bias out as a [1, 512] row; the changes of float format are the identity on the extended
  reals. The grid has ten points; point t reads rows 5000·t … 5000·t + 4999 of the aggregated features and the whole
  of the other two arrays, and writes rows 5000·t … 5000·t + 4999 of the result. So what point t writes back is its
  block of `Layer.out` of the aggregated features, the weight and the bias, and the ten blocks tile the result.
-/
import proofs.«154107_j5549097746957_1_alg».proof.Proof.Gen.KernelIdeal.Value
import proofs.«154107_j5549097746957_1_alg».proof.Proof.BodyValue
import proofs.«154107_j5549097746957_1_alg».proof.Proof.Layer
import Idealize.ShloMosaic.Lib.Pipeline.Value
import Idealize.ShloMosaic.Lib.StableHlo.Run
import Idealize.ShloMosaic.Lib.ValueIdx

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the region finds -/

/-- The aggregated node features: the rows of `x0` at the (wrapped) source indices `x1`, added onto the zero array
    at the destination indices `x2`. -/
def agg (x0 : (⟨S50000x128, .f32⟩ : BufTy).Contents (Elt Ideal)) (x1 x2 : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (Host.gather gather_S50000x128_S800000x1_S800000x128_1_0_n_n_0_1_1128 x0
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-- The three arguments the aggregation reads, on core `c`. -/
abbrev aggOf (c : Dev nD) : S50000x128.Idx → EReal :=
  agg (m ((c : Thread nD τ).loc main_arg0)) (m ((c : Thread nD τ).loc main_arg1)) (m ((c : Thread nD τ).loc main_arg2))

/-- Narrowing the float format changes nothing on the extended reals. -/
theorem narrow_id {s : Shape} (x : FVec Ideal s .f32) (h : FTy.bits .bf16 < FTy.bits .f32) :
    (truncf .bf16 x h : FVec Ideal s .bf16) = x := rfl

/-- Window 0's array as @main writes it: the aggregated features, narrowed. -/
theorem feat_arr_narrowed (c : Dev nD) :
    (V m c main_v12 : S50000x128.Idx → EReal) = (truncf (F := Ideal) .bf16 (aggOf m c) bitsLt_bf16_f32 : S50000x128.Idx → EReal) := by
  dsimp only [Gen.V, Gen.hostOps0]
  after_results <;> rfl

/-- Window 0's array is the aggregated features. -/
theorem feat_arr (c : Dev nD) : (V m c main_v12 : S50000x128.Idx → EReal) = aggOf m c :=
  (feat_arr_narrowed m c).trans (narrow_id (aggOf m c) bitsLt_bf16_f32)

/-- Window 1's array as @main writes it: the weight transposed, narrowed. -/
theorem wt_arr_narrowed (c : Dev nD) : (V m c main_v13 : S128x512.Idx → EReal)
    = (truncf (F := Ideal) .bf16 (transpose S128x512 [1, 0] (m ((c : Thread nD τ).loc main_arg3) : S512x128.Idx → EReal) transposes_S512x128_S128x512_1_0) bitsLt_bf16_f32 : S128x512.Idx → EReal) := by
  dsimp only [Gen.V, Gen.hostOps0]
  after_results <;> rfl

/-- Window 1's array is the weight transposed. -/
theorem wt_arr (c : Dev nD) : (V m c main_v13 : S128x512.Idx → EReal)
    = transpose S128x512 [1, 0] (m ((c : Thread nD τ).loc main_arg3)) transposes_S512x128_S128x512_1_0 :=
  (wt_arr_narrowed m c).trans (narrow_id (s := S128x512) _ bitsLt_bf16_f32)

/-- Window 2's array is the bias as one row. -/
theorem bias_arr (c : Dev nD) : (V m c main_v11 : S1x512.Idx → EReal)
    = shapeCast S1x512 (m ((c : Thread nD τ).loc main_arg4)) shapeCasts_S512_S1x512 := by
  dsimp only [Gen.V, Gen.hostOps0]
  after_results <;> rfl

/-- The transposed weight at (k, o) is the weight at (o, k). -/
theorem wt_apply (c : Dev nD) (k : Fin 128) (o : Fin 512) :
    (V m c main_v13 : S128x512.Idx → EReal) (ix2 k o) = (m ((c : Thread nD τ).loc main_arg3) : S512x128.Idx → EReal) (ix2 o k) := by
  rw [wt_arr]
  exact transpose_apply [1, 0] _ transposes_S512x128_S128x512_1_0 (ix2 k o) (ix2 o k)
    (fun b => match b with | ⟨0, _⟩ => rfl | ⟨1, _⟩ => rfl)

/-- The bias row at (0, o) is the bias at o. -/
theorem bias_apply (c : Dev nD) (o : Fin 512) :
    (V m c main_v11 : S1x512.Idx → EReal) (ix2 0 o) = (m ((c : Thread nD τ).loc main_arg4) : S512.Idx → EReal) (ix1 o) := by
  rw [bias_arr]
  refine shapeCast_apply _ shapeCasts_S512_S1x512 (ix2 0 o) (ix1 o) ?_
  rw [Shape.rowMajor_val_one, Shape.rowMajor_val_two]
  show o.val = 0 * 512 + o.val
  omega

/-! ## The windows' blocks -/

/-- The printed index maps over the ten points: the feature and result windows move down the rows with the point,
    the weight and bias windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t, read off ANY [50000, 128] array: entry (p, k) is the array's row 5000·t + p. -/
theorem read_blk0 (t : Fin cfg0.N) (A : S50000x128.Idx → EReal) (p : Fin 5000) (k : Fin 128) (n : Fin 50000)
    (hn : n.val = 5000 * t.val + p.val) :
    (((cfg0.win 0).blk t).view.read (Elt Ideal) A : Vec Ideal S5000x128 .bf16) (ix2 p k) = A (ix2 n k) := by
  obtain ⟨e0, e1, -⟩ := idx_facts t
  rw [View.read_apply]
  show A _ = A _
  refine congrArg A (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The weight window's block at any point, read off ANY [128, 512] array, is the array. -/
theorem read_blk1 (t : Fin cfg0.N) (A : S128x512.Idx → EReal) (k : Fin 128) (o : Fin 512) :
    (((cfg0.win 1).blk t).view.read (Elt Ideal) A : Vec Ideal S128x512 .bf16) (ix2 k o) = A (ix2 k o) := by
  obtain ⟨-, -, e0, e1, -⟩ := idx_facts t
  rw [View.read_apply]
  show A _ = A _
  refine congrArg A (funext fun a => Fin.ext ?_)
  match a with
  | ⟨0, _⟩ => show win0_1.index t (0 : Fin 2) * 128 + 1 * k.val = k.val; rw [e0]; omega
  | ⟨1, _⟩ => show win0_1.index t (1 : Fin 2) * 512 + 1 * o.val = o.val; rw [e1]; omega

/-- The bias window's block at any point, read off ANY [1, 512] array, is the array. -/
theorem read_blk2 (t : Fin cfg0.N) (A : S1x512.Idx → EReal) (o : Fin 512) :
    (((cfg0.win 2).blk t).view.read (Elt Ideal) A : Vec Ideal S1x512 .f32) (ix2 0 o) = A (ix2 0 o) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 1 + 1 * 0 = 0; rw [e0]
  | ⟨1, _⟩ => show win0_2.index t (1 : Fin 2) * 512 + 1 * o.val = o.val; rw [e1]; omega

/-- The result window's block at point t, read off ANY [50000, 512] array: entry (p, q) is the array's row 5000·t + p. -/
theorem read_blk3 (t : Fin cfg0.N) (A : S50000x512.Idx → EReal) (p : Fin 5000) (q : Fin 512) (n : Fin 50000)
    (hn : n.val = 5000 * t.val + p.val) :
    (((cfg0.win 3).blk t).view.read (Elt Ideal) A : Vec Ideal S5000x512 .f32) (ix2 p q) = A (ix2 n q) := by
  obtain ⟨-, -, -, -, -, -, e0, e1⟩ := idx_facts t
  rw [View.read_apply]
  show A _ = A _
  refine congrArg A (funext fun a => Fin.ext ?_)
  match a with
  | ⟨0, _⟩ => show win0_3.index t (0 : Fin 2) * 5000 + 1 * p.val = n.val; rw [e0, hn]; omega
  | ⟨1, _⟩ => show win0_3.index t (1 : Fin 2) * 512 + 1 * q.val = q.val; rw [e1]; omega

/-- The feature window's block at point t, entry (p, k), is the aggregated features at row 5000·t + p. -/
theorem feat_blk (c : Dev nD) (t : Fin cfg0.N) (p : Fin 5000) (k : Fin 128) (n : Fin 50000) (hn : n.val = 5000 * t.val + p.val) :
    (iblk m c 0 t : Vec Ideal S5000x128 .bf16) (ix2 p k) = aggOf m c (ix2 n k) := by
  unfold iblk
  refine (read_blk0 t (V m c main_v12) p k n hn).trans ?_
  exact congrFun (feat_arr m c) (ix2 n k)

/-- The weight window's block at any point, entry (k, o), is the weight at (o, k). -/
theorem wt_blk (c : Dev nD) (t : Fin cfg0.N) (k : Fin 128) (o : Fin 512) :
    (iblk m c 1 t : Vec Ideal S128x512 .bf16) (ix2 k o) = (m ((c : Thread nD τ).loc main_arg3) : S512x128.Idx → EReal) (ix2 o k) := by
  unfold iblk
  refine (read_blk1 t (V m c main_v13) k o).trans ?_
  exact wt_apply m c k o

/-- The bias window's block at any point, entry (0, o), is the bias at o. -/
theorem bias_blk (c : Dev nD) (t : Fin cfg0.N) (o : Fin 512) :
    (iblk m c 2 t : Vec Ideal S1x512 .f32) (ix2 0 o) = (m ((c : Thread nD τ).loc main_arg4) : S512.Idx → EReal) (ix1 o) := by
  unfold iblk
  refine (read_blk2 t (V m c main_v11) o).trans ?_
  exact bias_apply m c o

/-! ## What a point writes back, and the whole array -/

/-- The result array: the layer of the aggregated features, the weight and the bias. -/
abbrev result (c : Dev nD) : S50000x512.Idx → EReal :=
  Cert.Layer.out (aggOf m c) (m ((c : Thread nD τ).loc main_arg3)) (m ((c : Thread nD τ).loc main_arg4))

theorem hz : (![0, 0] : Fin 2 → Nat) = fun _ => 0 := funext fun a => by fin_cases a <;> rfl

/-- Point t writes back block t of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S5000x128) hz, View.ld_unit_zero (S := S128x512) hz, View.ld_unit_zero (S := S1x512) hz]
  funext j
  obtain ⟨p, q, rfl⟩ : ∃ (p : Fin 5000) (q : Fin 512), j = ix2 p q := ⟨j 0, j 1, eq_ix2 j⟩
  have hp : p.val < 5000 := p.isLt
  have hN : cfg0.N = 10 := N_0
  have ht : t.val < 10 := by have := t.isLt; omega
  have hn : 5000 * t.val + p.val < 50000 := by omega
  -- the right side: block t of `result` at (p, q) is `result` at row 5000·t + p
  refine Eq.trans ?_ (read_blk3 t (result m c) p q ⟨5000 * t.val + p.val, hn⟩ rfl).symm
  -- the left side: the body's stored value at (p, q)
  refine (Eq.trans rfl (Cert.KernelIdeal.Body.stored_apply (iblk m c 0 t) (iblk m c 1 t) (iblk m c 2 t) p q)).trans ?_
  show Cert.Layer.act _ = Cert.Layer.act (Cert.Layer.pre (aggOf m c) _ _ ⟨5000 * t.val + p.val, hn⟩ q)
  unfold Cert.Layer.pre
  refine congrArg Cert.Layer.act ?_
  rw [bias_blk m c t q]
  simp only [fun k => feat_blk m c t p k ⟨5000 * t.val + p.val, hn⟩ rfl, fun k => wt_blk m c t k q]

/-- An index of the result is in point t's block iff each coordinate is in the block's range on its axis. -/
theorem mem_blk (t : Fin cfg0.N) (i : S50000x512.Idx) :
    i ∈ ((cfg0.win 3).blk t).view.set ↔ ∀ a : Fin 2, win0_3.index t a * S5000x512.size a ≤ (i a).val ∧ (i a).val < win0_3.index t a * S5000x512.size a + S5000x512.size a := by
  show i ∈ ((View.whole main_v14).slice (win0_3.rect t)).set ↔ _
  rw [View.set_slice_whole, Rect.mem_set_unit]
  exact Iff.rfl

/-- Every row of the result is in the block of the point `row / 5000`. -/
theorem cover (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 512 ≤ (i 1).val ∧ (i 1).val < win0_3.index t (1 : Fin 2) * 512 + 512
    rw [e1]; omega

/-- After the run the result array is `result`. -/
theorem final (c : Dev nD) : (dats m 0 c).arrAt 3 cfg0.N = result m c :=
  (dats m 0 c).arrAt_eq_of_cover 3 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.lean ====
/-
  A graph-convolution layer: the rows of the feature matrix gathered at the edges' sources are added onto the edges'
  destination nodes, and the aggregated features h go through a linear map and a leaky rectifier,
  out[n, o] = act ( Σ_k h[n, k] · W[o, k] + b[o] ).

  Kernel and reference aggregate with the same host operations, so both hold the same array h of the arguments. The
  kernel transposes W on the host, narrows h and the transposed W to bf16 (the identity on the extended reals), and on
  a grid of ten points multiplies a [5000, 128] row block of h with the [128, 512] transposed weight into a zero
  accumulator, adds the bias row and applies the rectifier; the ten row blocks tile the [50000, 512] result. The
  reference contracts the last axes of h and W in one host product, adds the bias broadcast along the rows and
  selects between the value and the slope times it. Entry by entry both are `Layer.out h W b`: the two sums range
  over the same products h[n, k] · W[o, k] in the same order, so no law of arithmetic beyond reading the indices is
  needed, and the inputs' finiteness is never used.

  The frames of the two kernel programs are the generated ones; the reference's frame is its generated run with the
  result dropped; the idealization rewrote nothing, so there is nothing to preserve.
-/
import proofs.«154107_j5549097746957_1_alg».proof.Defs
import proofs.«154107_j5549097746957_1_alg».proof.Proof.Gen.Kernel
import proofs.«154107_j5549097746957_1_alg».proof.Proof.Gen.Kernel.Skeleton
import proofs.«154107_j5549097746957_1_alg».proof.Proof.Gen.Kernel.Launch
import proofs.«154107_j5549097746957_1_alg».proof.Proof.Gen.Kernel.Points
import proofs.«154107_j5549097746957_1_alg».proof.Proof.Gen.Kernel.Frame
import proofs.«154107_j5549097746957_1_alg».proof.Proof.Gen.KernelIdeal
import proofs.«154107_j5549097746957_1_alg».proof.Proof.Gen.KernelIdeal.Skeleton
import proofs.«154107_j5549097746957_1_alg».proof.Proof.Gen.KernelIdeal.Launch
import proofs.«154107_j5549097746957_1_alg».proof.Proof.Gen.KernelIdeal.Points
import proofs.«154107_j5549097746957_1_alg».proof.Proof.Gen.KernelIdeal.Frame
import proofs.«154107_j5549097746957_1_alg».proof.Proof.Gen.ReferenceIdeal
import proofs.«154107_j5549097746957_1_alg».proof.Proof.Gen.Pre_finite_inputs
import proofs.«154107_j5549097746957_1_alg».proof.Proof.Gen.KernelIdeal.Value
import proofs.«154107_j5549097746957_1_alg».proof.Proof.Gen.ReferenceIdeal.Run
import proofs.«154107_j5549097746957_1_alg».proof.Proof.Gen.ReferenceIdeal.Read
import proofs.«154107_j5549097746957_1_alg».proof.Proof.Layer
import proofs.«154107_j5549097746957_1_alg».proof.Proof.RefLayer
import proofs.«154107_j5549097746957_1_alg».proof.Proof.KernelValue
import Idealize.ShloMosaic.Adequacy
import Idealize.ShloMosaic.Init

noncomputable section

namespace Cert.Proof

open Idealize.ShloMosaic Idealize.ShloMosaic.TcCoe Idealize.SL.Sem

/-- The two programs aggregate alike: the kernel's host prefix and the reference's scatter stage are one term of the
    feature matrix and the two index arrays (the same gather of the wrapped sources, the same scatter-add onto zero). -/
theorem agg_same (x0 : (⟨Cert.KernelIdeal.S50000x128, .f32⟩ : BufTy).Contents (Elt Ideal))
    (x1 x2 : (⟨Cert.KernelIdeal.S800000, .i32⟩ : BufTy).Contents (Elt Ideal)) :
    Cert.ReferenceIdeal.Read.val_main_v9 (F := Ideal) x0 x1 x2 = Cert.KernelIdeal.Hand.agg x0 x1 x2 := by
  unfold Cert.ReferenceIdeal.Read.val_main_v9 Cert.ReferenceIdeal.Read.val_main_v8 Cert.ReferenceIdeal.Read.val_main_v7
    Cert.ReferenceIdeal.Read.val_main_cst Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_c_0 Cert.ReferenceIdeal.Read.val_main_v1 Cert.ReferenceIdeal.Read.val_main_v0
    Cert.ReferenceIdeal.Read.val_main_c Cert.KernelIdeal.Hand.agg
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's are the layer of
    one and the same aggregated feature array, the weight and the bias. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_is_layer,
    (hagree c).1, (hagree c).2.1, (hagree c).2.2.1, (hagree c).2.2.2.1, (hagree c).2.2.2.2]
  exact congrArg (fun h => Cert.Layer.out h _ _) (agg_same _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
